-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64 : Shape := ⟨2, ![32, 64]⟩
abbrev S32x64x3 : Shape := ⟨3, ![32, 64, 3]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S32x64x3 : S_.BroadcastsInDim S32x64x3 (![] : Fin 0 → Fin S32x64x3.rank)
  reducesTo_S32x64x3_S_d0_1_2 : S32x64x3.ReducesTo [0, 1, 2] S_

variable [Facts]

def fn {F : FTy → Type} [FloatOps F] (main_arg0 : FVec F S32x64 .f32) (main_arg1 : IVec S32x64x3 32) (main_arg2 : IVec S32x64 1) : IVec S_ 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_c_0 : IVec S_ 32 := constantI S_ 32 4294967233#32
  let main_v4 : IVec S32x64x3 32 := broadcastInDim S32x64x3 ![] bcast_S_S32x64x3 main_c_0
  let main_v5 : IVec S32x64x3 1 := cmpi .sge main_arg1 main_v4
  let main_c_1 : IVec S_ 32 := constantI S_ 32 63#32
  let main_v6 : IVec S32x64x3 32 := broadcastInDim S32x64x3 ![] bcast_S_S32x64x3 main_c_1
  let main_v7 : IVec S32x64x3 1 := cmpi .sle main_arg1 main_v6
  let main_v8 : IVec S32x64x3 1 := andi main_v5 main_v7
  let main_c_2 : IVec S_ 1 := constantI S_ 1 1#1
  let main_v9 : IVec S_ 1 := (fun x v => Host.reduce IntOp.andi x v reducesTo_S32x64x3_S_d0_1_2 h_S_) main_v8 main_c_2
  let main_v10 : IVec S_ 1 := andi main_v3 main_v9
  main_v10
-- ==== Kernel.lean ====
abbrev S32x64 : Shape := ⟨2, ![32, 64]⟩
abbrev S32x64x3 : Shape := ⟨3, ![32, 64, 3]⟩
abbrev S_ : Shape := ⟨0, ![]⟩
abbrev S32x64x1 : Shape := ⟨3, ![32, 64, 1]⟩
abbrev S32x64x2 : Shape := ⟨3, ![32, 64, 2]⟩
abbrev S32x127x16129 : Shape := ⟨3, ![32, 127, 16129]⟩
abbrev S1x64x1 : Shape := ⟨3, ![1, 64, 1]⟩
abbrev S1x64x2 : Shape := ⟨3, ![1, 64, 2]⟩
abbrev S1x127x16129 : Shape := ⟨3, ![1, 127, 16129]⟩
abbrev S64x1 : Shape := ⟨2, ![64, 1]⟩
abbrev S64x127 : Shape := ⟨2, ![64, 127]⟩
abbrev S64x16129 : Shape := ⟨2, ![64, 16129]⟩
abbrev S127x64 : Shape := ⟨2, ![127, 64]⟩
abbrev S127x16129 : Shape := ⟨2, ![127, 16129]⟩
abbrev S32x127x127x127 : Shape := ⟨4, ![32, 127, 127, 127]⟩

abbrev nBuf : Space → Nat
  | .hbm => 25
  | .vmem => 6
  | .smem => 0
  | _ => 0

abbrev bufTy : (tb : Table) → Fin (tcTables nBuf tb) → BufTy
  | .hbm, ⟨0, _⟩ => ⟨S32x64, .f32⟩
  | .hbm, ⟨1, _⟩ => ⟨S32x64x3, .i32⟩
  | .hbm, ⟨2, _⟩ => ⟨S32x64, .i1⟩
  | .hbm, ⟨3, _⟩ => ⟨S_, .i32⟩
  | .hbm, ⟨4, _⟩ => ⟨S32x64x3, .i32⟩
  | .hbm, ⟨5, _⟩ => ⟨S32x64x3, .i32⟩
  | .hbm, ⟨6, _⟩ => ⟨S32x64x1, .i32⟩
  | .hbm, ⟨7, _⟩ => ⟨S32x64, .i32⟩
  | .hbm, ⟨8, _⟩ => ⟨S32x64x1, .i32⟩
  | .hbm, ⟨9, _⟩ => ⟨S32x64, .i32⟩
  | .hbm, ⟨10, _⟩ => ⟨S_, .i32⟩
  | .hbm, ⟨11, _⟩ => ⟨S32x64, .i32⟩
  | .hbm, ⟨12, _⟩ => ⟨S32x64, .i32⟩
  | .hbm, ⟨13, _⟩ => ⟨S32x64x1, .i32⟩
  | .hbm, ⟨14, _⟩ => ⟨S32x64, .i32⟩
  | .hbm, ⟨15, _⟩ => ⟨S32x64, .i32⟩
  | .hbm, ⟨16, _⟩ => ⟨S32x64x1, .i32⟩
  | .hbm, ⟨17, _⟩ => ⟨S32x64x1, .i32⟩
  | .hbm, ⟨18, _⟩ => ⟨S32x64x2, .i32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S32x64x1, .f32⟩
  | .hbm, ⟨23, _⟩ => ⟨S32x127x16129, .f32⟩
  | .hbm, ⟨24, _⟩ => ⟨S32x127x127x127, .f32⟩
  | .local _ .vmem, ⟨0, _⟩ => ⟨S1x64x1, .f32⟩
  | .local _ .vmem, ⟨1, _⟩ => ⟨S1x64x1, .f32⟩
  | .local _ .vmem, ⟨2, _⟩ => ⟨S1x64x2, .i32⟩
  | .local _ .vmem, ⟨3, _⟩ => ⟨S1x64x2, .i32⟩
  | .local _ .vmem, ⟨4, _⟩ => ⟨S1x127x16129, .f32⟩
  | .local _ .vmem, ⟨5, _⟩ => ⟨S1x127x16129, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x127x16129 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S32x64x3 : S_.BroadcastsInDim S32x64x3 (![] : Fin 0 → Fin S32x64x3.rank)
  slices_S32x64x3_S32x64x1_0_0_0 : S32x64x3.Slices ![0, 0, 0] S32x64x1
  shapeCasts_S32x64x1_S32x64 : S32x64x1.ShapeCasts S32x64
  slices_S32x64x3_S32x64x1_0_0_1 : S32x64x3.Slices ![0, 0, 1] S32x64x1
  bcast_S_S32x64 : S_.BroadcastsInDim S32x64 (![] : Fin 0 → Fin S32x64.rank)
  slices_S32x64x3_S32x64x1_0_0_2 : S32x64x3.Slices ![0, 0, 2] S32x64x1
  bcast_S32x64_S32x64x1_0_1 : S32x64.BroadcastsInDim S32x64x1 (![0, 1] : Fin 2 → Fin S32x64x1.rank)
  concatenates_S32x64x1_S32x64x1_S32x64x2_d2 : Shape.Concatenates [S32x64x1, S32x64x1] S32x64x2 2
  shapeCasts_S32x64_S32x64x1 : S32x64.ShapeCasts S32x64x1
  inb_S1x64x2_S1x64x1_0_0_0 : ∀ a, (![0, 0, 0] : Fin 3 → Nat) a + S1x64x1.size a ≤ S1x64x2.size a
  h_S1x64x1 : 0 < S1x64x1.numel
  shapeCasts_S1x64x1_S64x1 : S1x64x1.ShapeCasts S64x1
  inb_S1x64x2_S1x64x1_0_0_1 : ∀ a, (![0, 0, 1] : Fin 3 → Nat) a + S1x64x1.size a ≤ S1x64x2.size a
  iota_S64x127_d1_w32 : S64x127.Iotas .tc 32 [1]
  broadcasts_S64x1_S64x127 : S64x1.Broadcasts S64x127
  natLt_1_32 : 1 < 32
  iota_S64x16129_d1_w32 : S64x16129.Iotas .tc 32 [1]
  broadcasts_S64x1_S64x16129 : S64x1.Broadcasts S64x16129
  inb_S1x64x1_S1x64x1_0_0_0 : ∀ a, (![0, 0, 0] : Fin 3 → Nat) a + S1x64x1.size a ≤ S1x64x1.size a
  transposes_S64x127_p1_0_S127x64 : S64x127.Transposes [1, 0] S127x64
  inb_S1x127x16129_S1x127x16129_0_0_0 : ∀ a, (![0, 0, 0] : Fin 3 → Nat) a + S1x127x16129.size a ≤ S1x127x16129.size a
  h_S1x127x16129 : 0 < S1x127x16129.numel
  shapeCasts_S1x127x16129_S127x16129 : S1x127x16129.ShapeCasts S127x16129
  shapeCasts_S127x16129_S1x127x16129 : S127x16129.ShapeCasts S1x127x16129
  shapeCasts_S32x127x16129_S32x127x127x127 : S32x127x16129.ShapeCasts S32x127x127x127
  dot_S127x64_S64x16129_S127x16129_1_0_0_1_n_n_wf : DotDims.WF S127x64 S64x16129 S127x16129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1.size a ≤ S32x64x1.size a
  hwx0_0 : ∀ i : grid0.Coords, EltTy.bits .f32 = 32 ∨ (Rect.block (s := S32x64x1) S1x64x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x2.size a ≤ S32x64x2.size a
  hwx0_1 : ∀ i : grid0.Coords, EltTy.bits .i32 = 32 ∨ (Rect.block (s := S32x64x2) S1x64x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x127x16129.size a ≤ S32x127x16129.size a
  hwx0_2 : ∀ i : grid0.Coords, EltTy.bits .f32 = 32 ∨ (Rect.block (s := S32x127x16129) S1x127x16129.size (cc0_transform_2 i) (hinb0_2 i)).WholeWords (EltTy.packing .f32)

variable [Facts₀]

def dot_S127x64_S64x16129_S127x16129_1_0_0_1_n_n : DotDims S127x64 S64x16129 S127x16129 where
  lhsContracting := [1]
  rhsContracting := [0]
  lhsNonContracting := [0]
  rhsNonContracting := [1]
  lhsBatch := []
  rhsBatch := []
  wf := dot_S127x64_S64x16129_S127x16129_1_0_0_1_n_n_wf

abbrev win0_0 : Pipeline.Window sig grid0 :=
  Pipeline.Window.ofSpec (Memref.whole main_v15) S1x64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x64x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x127x16129.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x64 : Shape := ⟨2, ![32, 64]⟩
abbrev S32x64x3 : Shape := ⟨3, ![32, 64, 3]⟩
abbrev S_ : Shape := ⟨0, ![]⟩
abbrev S32 : Shape := ⟨1, ![32]⟩
abbrev S32x1 : Shape := ⟨2, ![32, 1]⟩
abbrev S32x127x127x127 : Shape := ⟨4, ![32, 127, 127, 127]⟩
abbrev S32x64x1 : Shape := ⟨3, ![32, 64, 1]⟩
abbrev S32x64x4 : Shape := ⟨3, ![32, 64, 4]⟩

abbrev nBuf : Space → Nat
  | .hbm => 54
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64x3, .i32⟩
  | .hbm, ⟨2, _⟩ => ⟨S32x64, .i1⟩
  | .hbm, ⟨3, _⟩ => ⟨S_, .i32⟩
  | .hbm, ⟨4, _⟩ => ⟨S32x64x3, .i32⟩
  | .hbm, ⟨5, _⟩ => ⟨S32x64x3, .i32⟩
  | .hbm, ⟨6, _⟩ => ⟨S_, .f32⟩
  | .hbm, ⟨7, _⟩ => ⟨S32x64, .f32⟩
  | .hbm, ⟨8, _⟩ => ⟨S32x64, .f32⟩
  | .hbm, ⟨9, _⟩ => ⟨S32, .i32⟩
  | .hbm, ⟨10, _⟩ => ⟨S32x1, .i32⟩
  | .hbm, ⟨11, _⟩ => ⟨S32x64, .i32⟩
  | .hbm, ⟨12, _⟩ => ⟨S_, .f32⟩
  | .hbm, ⟨13, _⟩ => ⟨S32x127x127x127, .f32⟩
  | .hbm, ⟨14, _⟩ => ⟨S32x64x1, .i32⟩
  | .hbm, ⟨15, _⟩ => ⟨S32x64, .i32⟩
  | .hbm, ⟨16, _⟩ => ⟨S32x64x1, .i32⟩
  | .hbm, ⟨17, _⟩ => ⟨S32x64, .i32⟩
  | .hbm, ⟨18, _⟩ => ⟨S32x64x1, .i32⟩
  | .hbm, ⟨19, _⟩ => ⟨S32x64, .i32⟩
  | .hbm, ⟨20, _⟩ => ⟨S_, .i32⟩
  | .hbm, ⟨21, _⟩ => ⟨S32x64, .i32⟩
  | .hbm, ⟨22, _⟩ => ⟨S32x64, .i1⟩
  | .hbm, ⟨23, _⟩ => ⟨S_, .i32⟩
  | .hbm, ⟨24, _⟩ => ⟨S32x64, .i32⟩
  | .hbm, ⟨25, _⟩ => ⟨S32x64, .i32⟩
  | .hbm, ⟨26, _⟩ => ⟨S32x64, .i32⟩
  | .hbm, ⟨27, _⟩ => ⟨S_, .i32⟩
  | .hbm, ⟨28, _⟩ => ⟨S32x64, .i32⟩
  | .hbm, ⟨29, _⟩ => ⟨S32x64, .i1⟩
  | .hbm, ⟨30, _⟩ => ⟨S_, .i32⟩
  | .hbm, ⟨31, _⟩ => ⟨S32x64, .i32⟩
  | .hbm, ⟨32, _⟩ => ⟨S32x64, .i32⟩
  | .hbm, ⟨33, _⟩ => ⟨S32x64, .i32⟩
  | .hbm, ⟨34, _⟩ => ⟨S_, .i32⟩
  | .hbm, ⟨35, _⟩ => ⟨S32x64, .i32⟩
  | .hbm, ⟨36, _⟩ => ⟨S32x64, .i1⟩
  | .hbm, ⟨37, _⟩ => ⟨S_, .i32⟩
  | .hbm, ⟨38, _⟩ => ⟨S32x64, .i32⟩
  | .hbm, ⟨39, _⟩ => ⟨S32x64, .i32⟩
  | .hbm, ⟨40, _⟩ => ⟨S32x64, .i32⟩
  | .hbm, ⟨41, _⟩ => ⟨S_, .i32⟩
  | .hbm, ⟨42, _⟩ => ⟨S32x64, .i32⟩
  | .hbm, ⟨43, _⟩ => ⟨S32x64, .i1⟩
  | .hbm, ⟨44, _⟩ => ⟨S_, .i32⟩
  | .hbm, ⟨45, _⟩ => ⟨S32x64, .i32⟩
  | .hbm, ⟨46, _⟩ => ⟨S32x64, .i32⟩
  | .hbm, ⟨47, _⟩ => ⟨S32x64, .i32⟩
  | .hbm, ⟨48, _⟩ => ⟨S32x64x1, .i32⟩
  | .hbm, ⟨49, _⟩ => ⟨S32x64x1, .i32⟩
  | .hbm, ⟨50, _⟩ => ⟨S32x64x1, .i32⟩
  | .hbm, ⟨51, _⟩ => ⟨S32x64x1, .i32⟩
  | .hbm, ⟨52, _⟩ => ⟨S32x64x4, .i32⟩
  | .hbm, ⟨53, _⟩ => ⟨S32x127x127x127, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S_S32x64x3 : S_.BroadcastsInDim S32x64x3 (![] : Fin 0 → Fin S32x64x3.rank)
  bcast_S_S32x64 : S_.BroadcastsInDim S32x64 (![] : Fin 0 → Fin S32x64.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S_S32x127x127x127 : S_.BroadcastsInDim S32x127x127x127 (![] : Fin 0 → Fin S32x127x127x127.rank)
  slices_S32x64x3_S32x64x1_0_0_0 : S32x64x3.Slices ![0, 0, 0] S32x64x1
  shapeCasts_S32x64x1_S32x64 : S32x64x1.ShapeCasts S32x64
  slices_S32x64x3_S32x64x1_0_0_1 : S32x64x3.Slices ![0, 0, 1] S32x64x1
  slices_S32x64x3_S32x64x1_0_0_2 : S32x64x3.Slices ![0, 0, 2] S32x64x1
  bcast_S32x64_S32x64x1_0_1 : S32x64.BroadcastsInDim S32x64x1 (![0, 1] : Fin 2 → Fin S32x64x1.rank)
  concatenates_S32x64x1_S32x64x1_S32x64x1_S32x64x1_S32x64x4_d2 : Shape.Concatenates [S32x64x1, S32x64x1, S32x64x1, S32x64x1] S32x64x4 2
  scatter_S32x127x127x127_S32x64x4_S32x64_n_0123_0123_2_wf : ScatterDims.WF S32x127x127x127 S32x64x4 S32x64 [] [0, 1, 2, 3] [0, 1, 2, 3] 2

variable [Facts₀]

def scatter_S32x127x127x127_S32x64x4_S32x64_n_0123_0123_2 : ScatterDims S32x127x127x127 S32x64x4 S32x64 where
  updateWindowDims := []
  insertedWindowDims := [0, 1, 2, 3]
  scatterDimsToOperandDims := [0, 1, 2, 3]
  indexVectorDim := 2
  wf := scatter_S32x127x127x127_S32x64x4_S32x64_n_0123_0123_2_wf

class Facts : Prop extends Facts₀ where

variable [Facts]
-- ==== Proof.Lattice.lean ====
/-
  The lattice scatter as ONE function of the argument arrays, and the word arithmetic both programs' index
  computations reduce to.

  A batch `b` holds 64 values `v (b, n)` and 64 raw offset triples `idx (b, n, ·)`. The lattice has side 127 and is
  centred at 63: the coordinate of a raw offset word `w` is `w + 63`. Entry `(b, i, j, k)` of the lattice is the sum of
  the values of batch `b` whose coordinate triple is `(i, j, k)`. One program finds those values by comparing the
  first coordinate with `i` and the COMBINED coordinate `c₁ · 127 + c₂` with `j · 127 + k`; the other adds each value
  at the position its three coordinates name. When every coordinate is below 127 the two descriptions agree, because
  `c₁ · 127 + c₂` determines `c₁` and `c₂`.
-/
import Idealize.ShloMosaic.PureOps.Ideal
import Idealize.ShloMosaic.Lib.ValueIdx
import Idealize.ShloMosaic.Lib.StableHlo.Predicate

noncomputable section

open scoped BigOperators

namespace Cert.Lattice

open Idealize.ShloMosaic Idealize.ShloMosaic.ValueIdx

/-- The lattice coordinate of a raw offset word: the offset moved by the lattice's centre, 63. -/
def coord (w : BitVec 32) : ℕ := (w + 63#32).toNat

/-- Every raw offset lies in `[-63, 63]`: every lattice coordinate is below the side 127. -/
def InRange (idx : IVec ⟨3, ![32, 64, 3]⟩ 32) : Prop := ∀ i, coord (idx i) < 127

/-- The lattice: entry `(b, i, j, k)` is the sum of the values of batch `b` whose coordinates are `(i, j, k)`. -/
def lattice (v : (⟨2, ![32, 64]⟩ : Shape).Idx → EReal) (idx : IVec ⟨3, ![32, 64, 3]⟩ 32) :
    (⟨4, ![32, 127, 127, 127]⟩ : Shape).Idx → EReal := fun y =>
  ∑ n : Fin 64, if coord (idx (ix3 (y 0) n (0 : Fin 3))) = (y 1).val ∧ coord (idx (ix3 (y 0) n (1 : Fin 3))) = (y 2).val
      ∧ coord (idx (ix3 (y 0) n (2 : Fin 3))) = (y 3).val then v (ix2 (y 0) n) else 0

/-- The values scattered: an input where its mask bit is set, zero elsewhere. -/
def masked (acids : (⟨2, ![32, 64]⟩ : Shape).Idx → EReal) (mask : IVec ⟨2, ![32, 64]⟩ 1) :
    (⟨2, ![32, 64]⟩ : Shape).Idx → EReal := fun i => Scalar.select (mask i) (acids i) 0

/-! ## Words -/

/-- A small count, as a word, equals the shifted offset iff the count is the coordinate. -/
theorem ofNat_eq_shift_iff (w : BitVec 32) (i : ℕ) (hi : i < 2 ^ 32) : BitVec.ofNat 32 i = w + 63#32 ↔ coord w = i := by
  unfold coord
  constructor
  · intro h
    rw [← h, BitVec.toNat_ofNat]
    exact Nat.mod_eq_of_lt hi
  · intro h
    apply BitVec.eq_of_toNat_eq
    rw [BitVec.toNat_ofNat, h]
    exact Nat.mod_eq_of_lt hi

/-- The combined word `(w₁ + 63) · 127 + (w₂ + 63)` does not wrap when both coordinates are below 127. -/
theorem combined_toNat (w₁ w₂ : BitVec 32) (h₁ : coord w₁ < 127) (h₂ : coord w₂ < 127) :
    ((w₁ + 63#32) * 127#32 + (w₂ + 63#32)).toNat = coord w₁ * 127 + coord w₂ := by
  unfold coord at *
  rw [BitVec.toNat_add, BitVec.toNat_mul]
  have e : (127#32 : BitVec 32).toNat = 127 := rfl
  rw [e]
  omega

/-- `j · 127 + k`, as a word, equals the combined word iff `j` and `k` are the two coordinates. -/
theorem ofNat_eq_combined_iff (w₁ w₂ : BitVec 32) (h₁ : coord w₁ < 127) (h₂ : coord w₂ < 127) (j k : ℕ) (hj : j < 127)
    (hk : k < 127) :
    BitVec.ofNat 32 (j * 127 + k) = (w₁ + 63#32) * 127#32 + (w₂ + 63#32) ↔ coord w₁ = j ∧ coord w₂ = k := by
  have hc := combined_toNat w₁ w₂ h₁ h₂
  constructor
  · intro h
    have := congrArg BitVec.toNat h
    rw [hc, BitVec.toNat_ofNat, Nat.mod_eq_of_lt (by omega)] at this
    omega
  · rintro ⟨e₁, e₂⟩
    apply BitVec.eq_of_toNat_eq
    rw [hc, BitVec.toNat_ofNat, Nat.mod_eq_of_lt (by omega), e₁, e₂]

/-- A shifted offset with coordinate below 127 is not negative: a start index that is "negative indices count from the
    end" leaves it alone. -/
theorem wrap_shift (w : BitVec 32) (h : coord w < 127) :
    Scalar.select (IntOp.cmpi .slt (w + 63#32) 0#32) (w + 63#32 + 127#32) (w + 63#32) = w + 63#32 := by
  have hlt : (w + 63#32).toNat < 2 ^ 31 := by unfold coord at h; omega
  have : IntOp.cmpi .slt (w + 63#32) 0#32 = 0#1 := by
    unfold IntOp.cmpi
    have : (w + 63#32).slt 0#32 = false := by
      rw [BitVec.slt, StableHlo.Predicate.toInt_eq_toNat_of_lt hlt]
      have e : (0#32 : BitVec 32).toInt = 0 := by decide
      rw [e]
      exact decide_eq_false (by omega)
    rw [this]; rfl
  rw [this]; exact ValueIdx.select_zero _ _

/-- Read signed, such a shifted offset is its coordinate. -/
theorem toInt_shift (w : BitVec 32) (h : coord w < 127) : (w + 63#32).toInt = (coord w : ℤ) := by
  have hlt : (w + 63#32).toNat < 2 ^ 31 := by unfold coord at h; omega
  rw [StableHlo.Predicate.toInt_eq_toNat_of_lt hlt]; rfl

/-- A batch number, as a word, is not negative either, and read signed it is itself. -/
theorem wrap_batch (b : ℕ) (hb : b < 32) :
    Scalar.select (IntOp.cmpi .slt (BitVec.ofNat 32 b) 0#32) (BitVec.ofNat 32 b + 32#32) (BitVec.ofNat 32 b) = BitVec.ofNat 32 b := by
  have hlt : (BitVec.ofNat 32 b).toNat < 2 ^ 31 := by rw [BitVec.toNat_ofNat]; omega
  have : IntOp.cmpi .slt (BitVec.ofNat 32 b) 0#32 = 0#1 := by
    unfold IntOp.cmpi
    have : (BitVec.ofNat 32 b).slt 0#32 = false := by
      rw [BitVec.slt, StableHlo.Predicate.toInt_eq_toNat_of_lt hlt]
      have e : (0#32 : BitVec 32).toInt = 0 := by decide
      rw [e]
      exact decide_eq_false (by omega)
    rw [this]; rfl
  rw [this]; exact ValueIdx.select_zero _ _

theorem toInt_batch (b : ℕ) (hb : b < 32) : (BitVec.ofNat 32 b).toInt = (b : ℤ) :=
  StableHlo.Predicate.toInt_ofNat_small b (by omega)

/-- An offset word between `-63` and `63`, both compared signed, has its coordinate below 127. -/
theorem coord_lt_of_cmp (w : BitVec 32) (h₁ : IntOp.cmpi .sge w 4294967233#32 = 1#1) (h₂ : IntOp.cmpi .sle w 63#32 = 1#1) :
    coord w < 127 := by
  change BitVec.ofBool ((4294967233#32 : BitVec 32).sle w) = 1#1 at h₁
  change BitVec.ofBool (w.sle 63#32) = 1#1 at h₂
  rw [StableHlo.Predicate.ofBool_eq_one_iff] at h₁ h₂
  have e₁ : (4294967233#32 : BitVec 32).toInt = -63 := by decide
  have e₂ : (63#32 : BitVec 32).toInt = 63 := by decide
  rw [BitVec.sle, decide_eq_true_eq, e₁] at h₁
  rw [BitVec.sle, decide_eq_true_eq, e₂] at h₂
  unfold coord
  rw [BitVec.toNat_add]
  have e₃ : (63#32 : BitVec 32).toNat = 63 := rfl
  rw [e₃]
  have := BitVec.toInt_eq_toNat_cond w
  split at this <;> omega

/-! ## One-hot factors -/

/-- An equality test of two words, widened and converted to a float, is 1 where they are equal and 0 elsewhere. -/
theorem hot_eq (x y : BitVec 32) :
    (FloatOps.sitofp (F := Ideal) .f32 ((IntOp.cmpi .eq x y).setWidth 32) : EReal) = if x = y then 1 else 0 := by
  by_cases h : x = y
  · rw [if_pos h, StableHlo.Predicate.cmpi_eq_iff.2 h]
    show (((((1#1 : BitVec 1).setWidth 32).toInt : ℤ) : ℝ) : EReal) = 1
    have : ((1#1 : BitVec 1).setWidth 32).toInt = 1 := by decide
    rw [this]; norm_num
  · rw [if_neg h]
    have : IntOp.cmpi .eq x y = 0#1 := ValueIdx.eq_zero_of_ne_one (fun e => h (StableHlo.Predicate.cmpi_eq_iff.1 e))
    rw [this]
    show (((((0#1 : BitVec 1).setWidth 32).toInt : ℤ) : ℝ) : EReal) = 0
    have : ((0#1 : BitVec 1).setWidth 32).toInt = 0 := by decide
    rw [this]; norm_num

/-- A sum of values each between two one-hot factors keeps the values at which both tests hold. -/
theorem sum_hot_mul {ι : Type} [Fintype ι] (a b : ι → Prop) [DecidablePred a] [DecidablePred b] (v : ι → EReal) :
    ∑ n, (if a n then (1 : EReal) else 0) * (v n * (if b n then (1 : EReal) else 0)) = ∑ n, if a n ∧ b n then v n else 0 := by
  refine Finset.sum_congr rfl fun n _ => ?_
  by_cases ha : a n <;> by_cases hb : b n <;> simp [ha, hb]

end Cert.Lattice

end
-- ==== Proof.Domain.lean ====
/-
  The added precondition, read back: every raw offset word lies between -63 and 63, so every lattice coordinate is
  below the side 127.

  The precondition is the conjunction of two whole-array tests. The second one compares every offset word, signed, with
  -63 from below and with 63 from above, and demands that every comparison holds. An "all" that came out true met only
  true elements, so each word passed both comparisons, which bounds its coordinate.
-/
import proofs.«426443_j11836929867945_3_alg».proof.Pre_finite_inputs
import proofs.«426443_j11836929867945_3_alg».proof.Proof.Lattice
import Idealize.ShloMosaic.Lib.ReduceAll

noncomputable section

namespace Cert.Domain

open Idealize.ShloMosaic

variable [Cert.Pre_finite_inputs.Facts]

/-- The rank-0 shape has one index. -/
instance : Subsingleton Cert.Pre_finite_inputs.S_.Idx := ⟨fun _ _ => funext fun d => d.elim0⟩

/-- Where the precondition holds, every offset's coordinate is below 127. -/
theorem inRange_of_pre {F : FTy → Type} [FloatOps F] (a0 : FVec F Cert.Pre_finite_inputs.S32x64 .f32)
    (a1 : IVec Cert.Pre_finite_inputs.S32x64x3 32) (a2 : IVec Cert.Pre_finite_inputs.S32x64 1)
    (h : Cert.Pre_finite_inputs.fn (F := F) a0 a1 a2 = fun _ => 1#1) : Cert.Lattice.InRange a1 := by
  intro i
  have h0 := congrFun h ValueIdx.ix0
  dsimp only [Cert.Pre_finite_inputs.fn] at h0
  obtain ⟨-, h9⟩ := IntOp.andi_eq_one.1 h0
  have h8 := Host.reduce_andi_all _ _ _ _ _ h9 i
  obtain ⟨h5, h7⟩ := IntOp.andi_eq_one.1 h8
  exact Cert.Lattice.coord_lt_of_cmp (a1 i) h5 h7

end Cert.Domain

end
-- ==== Proof.LibPlainProduct.lean ====
/-
  A plain matrix product read at an entry.

  A `tpu.matmul` or a host `dot_general` of an `[M, K]` matrix by a `[K, N]` matrix whose dimension numbers contract
  axis 1 of the left operand with axis 0 of the right one, with no batch axes, is, over the extended reals and into a
  zero accumulator, the textbook product: entry `(p, q)` is `∑ k, l (p, k) · r (k, q)`. The library states the product
  over the record's own contraction index and operand index maps; here those are read once, for every record of this
  kind (`IsPlain`, six equations a printed record proves by `rfl`), at any three extents.
-/
import Idealize.ShloMosaic.PureOps.Ideal.Laws
import Idealize.ShloMosaic.Lib.ValueIdx

noncomputable section

open scoped BigOperators

namespace Cert.Lib.PlainProduct

open Idealize.ShloMosaic Idealize.ShloMosaic.ValueIdx

variable {M K N : Nat}

/-- The dimension numbers of a plain product `[M, K] · [K, N]`: the left operand contracts its axis 1, the right one its
    axis 0, the kept axes are the left operand's 0 and the right operand's 1, and there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

/-- One axis is contracted … -/
theorem contr_rank (h : IsPlain D) : D.contr.rank = 1 := by
  rw [D.rank_contr, h.lc]; rfl

/-- … and its extent is `K`. -/
theorem contr_size (h : IsPlain D) (h0 : 0 < D.contr.rank) : D.contr.size ⟨0, h0⟩ = K := by
  rw [D.size_contr 0 (by rw [h.lc]; exact Nat.one_pos)]
  simp only [h.lc, List.getElem_cons_zero]
  rfl

/-- A coordinate of an index does not depend on how its axis number is written. -/
private theorem coord_congr {s : Shape} (j : s.Idx) (a b : Nat) (ha : a < s.rank) (hb : b < s.rank) (e : a = b) :
    (j ⟨a, ha⟩).val = (j ⟨b, hb⟩).val := by subst e; rfl

/-- The left operand is read at the result's row … -/
theorem lhsIdx_row (h : IsPlain D) (j : (⟨2, ![M, N]⟩ : Shape).Idx) (k : D.contr.Idx) :
    (D.lhsIdx j k 0).val = (j 0).val := by
  unfold DotDims.lhsIdx
  rw [dif_neg (show ¬(0 : Fin (⟨2, ![M, K]⟩ : Shape).rank) ∈ D.lhsBatch by rw [h.lb]; exact List.not_mem_nil),
    dif_pos (show (0 : Fin (⟨2, ![M, K]⟩ : Shape).rank) ∈ D.lhsNonContracting by rw [h.ln]; exact List.mem_singleton.mpr rfl)]
  simp only [Fin.val_cast]
  exact coord_congr j _ _ _ _ (by simp [h.lb, h.ln])

/-- … and at the contraction position; -/
theorem lhsIdx_col (h : IsPlain D) (j : (⟨2, ![M, N]⟩ : Shape).Idx) (k : D.contr.Idx) :
    (D.lhsIdx j k 1).val = (k ⟨0, by rw [contr_rank h]; exact Nat.one_pos⟩).val :=
  D.lhsIdx_val_of_single h.lc j k

/-- the right operand at the contraction position … -/
theorem rhsIdx_row (h : IsPlain D) (j : (⟨2, ![M, N]⟩ : Shape).Idx) (k : D.contr.Idx) :
    (D.rhsIdx j k 0).val = (k ⟨0, by rw [contr_rank h]; exact Nat.one_pos⟩).val :=
  D.rhsIdx_val_of_single h.rc j k

/-- … and at the result's column. -/
theorem rhsIdx_col (h : IsPlain D) (j : (⟨2, ![M, N]⟩ : Shape).Idx) (k : D.contr.Idx) :
    (D.rhsIdx j k 1).val = (j 1).val := by
  unfold DotDims.rhsIdx
  rw [dif_neg (show ¬(1 : Fin (⟨2, ![K, N]⟩ : Shape).rank) ∈ D.rhsBatch by rw [h.rb]; exact List.not_mem_nil),
    dif_pos (show (1 : Fin (⟨2, ![K, N]⟩ : Shape).rank) ∈ D.rhsNonContracting by rw [h.rn]; exact List.mem_singleton.mpr rfl)]
  simp only [Fin.val_cast]
  exact coord_congr j _ _ _ _ (by simp [h.lb, h.ln, h.rn])

/-- The sum over the record's contraction index of the operands' products, at entry `(p, q)`, is the sum over
    `k : Fin K` of `l (p, k) · r (k, q)`. -/
theorem sum_contr (h : IsPlain D) (l : (⟨2, ![M, K]⟩ : Shape).Idx → EReal) (r : (⟨2, ![K, N]⟩ : Shape).Idx → EReal)
    (p : Fin M) (q : Fin N) :
    ∑ k : D.contr.Idx, l (D.lhsIdx (ix2 p q) k) * r (D.rhsIdx (ix2 p q) k) = ∑ k : Fin K, l (ix2 p k) * r (ix2 k q) := by
  have hr := contr_rank h
  have hs : D.contr.size ⟨0, by omega⟩ = K := contr_size h _
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row h _ _
    | ⟨1, _⟩ => exact (lhsIdx_col h _ _).trans hk)
  have er : D.rhsIdx (ix2 p q) ((contrEquiv1 D K hr hs).symm k) = ix2 k q := funext fun a => Fin.ext (by
    match a with
    | ⟨0, _⟩ => exact (rhsIdx_row h _ _).trans hk
    | ⟨1, _⟩ => exact rhsIdx_col h _ _)
  rw [el, er]

/-- A `tpu.matmul` of this kind into the zero splat, at entry `(p, q)`. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply]
  exact sum_contr h l r p q

/-- The host's `dot_general` of this kind, at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply]
  exact sum_contr h l r p q

end Cert.Lib.PlainProduct

end
-- ==== Proof.KernelPayload.lean ====
/-
  The kernel body's stored value at an entry.

  For one batch the body holds the 64 first coordinates `c₀ n`, the 64 combined coordinates `q n` and the 64 values
  `v n`. It builds the one-hot matrix `[row = c₀ n]` (127 rows), the matrix `v n · [column = q n]` (16129 columns) and
  multiplies them: entry `(i, p)` of the product is the sum over `n` of `[i = c₀ n] · (v n · [p = q n])`, that is the sum
  of the values whose first coordinate is `i` and whose combined coordinate is `p`.
-/
import proofs.«426443_j11836929867945_3_alg».proof.Proof.Gen.KernelIdeal.Skeleton
import proofs.«426443_j11836929867945_3_alg».proof.Proof.Lattice
import proofs.«426443_j11836929867945_3_alg».proof.Proof.LibPlainProduct
import Idealize.ShloMosaic.Lib.Pipeline.Value
import Idealize.ShloMosaic.Lib.ValueLayout

noncomputable section

open scoped BigOperators

namespace Cert.KernelPayload

open Idealize.ShloMosaic Idealize.ShloMosaic.ValueIdx Cert.KernelIdeal Cert.KernelIdeal.Gen

/-! ## The operands of the product, each read at an entry -/

/-- A `[a, 1]` column broadcast to `[a, b]` reads, at `(n, c)`, the column's entry in row `n`. -/
theorem broadcastTo_a1_ab_apply {α : Type} {a b : ℕ} (v : (⟨2, ![a, 1]⟩ : Shape).Idx → α)
    (h : (⟨2, ![a, 1]⟩ : Shape).Broadcasts ⟨2, ![a, b]⟩) (n : Fin a) (c : Fin b) :
    broadcastTo ⟨2, ![a, b]⟩ v h (ix2 n c) = v (ix2 n (0 : Fin 1)) := by
  refine broadcastTo_apply v h (ix2 n c) (ix2 n (0 : Fin 1)) fun ax => ?_
  match ax with
  | ⟨0, _⟩ =>
    show n.val = if a = 1 then 0 else n.val
    split
    · have := n.isLt; omega
    · rfl
  | ⟨1, _⟩ => rfl

/-- A `[1, a, 1]` block viewed as an `[a, 1]` column and spread over `b` columns reads, at `(n, c)`, the block's entry
    `(0, n, 0)`. -/
theorem spread_apply {α : Type} {a b : ℕ} (x : (⟨3, ![1, a, 1]⟩ : Shape).Idx → α)
    (hc : (⟨3, ![1, a, 1]⟩ : Shape).ShapeCasts ⟨2, ![a, 1]⟩) (hb : (⟨2, ![a, 1]⟩ : Shape).Broadcasts ⟨2, ![a, b]⟩)
    (n : Fin a) (c : Fin b) :
    broadcastTo ⟨2, ![a, b]⟩ (shapeCast ⟨2, ![a, 1]⟩ x hc) hb (ix2 n c) = x (ix3 (0 : Fin 1) n (0 : Fin 1)) := by
  rw [broadcastTo_a1_ab_apply, shapeCast_1ab_ab_apply]

/-- A column count along axis 1 of an `[a, b]` array reads, at `(n, c)`, the word of `c`. -/
theorem count_apply {a b : ℕ} (h : (⟨2, ![a, b]⟩ : Shape).Iotas .tc 32 [1]) (n : Fin a) (c : Fin b) :
    iota .tc ⟨2, ![a, b]⟩ 32 [1] h (ix2 n c) = BitVec.ofNat 32 c.val :=
  iota_single_apply .tc ⟨2, ![a, b]⟩ 32 1 h (ix2 n c)

/-- The one-hot matrix `[column = word of the row]`: the test of the column count against the spread words, widened
    and converted, is 1 at `(n, c)` where the word of `c` is row `n`'s word, and 0 elsewhere. -/
theorem hot_apply {a b : ℕ} (x : IVec ⟨3, ![1, a, 1]⟩ 32) (hi : (⟨2, ![a, b]⟩ : Shape).Iotas .tc 32 [1])
    (hc : (⟨3, ![1, a, 1]⟩ : Shape).ShapeCasts ⟨2, ![a, 1]⟩) (hb : (⟨2, ![a, 1]⟩ : Shape).Broadcasts ⟨2, ![a, b]⟩)
    (hw : 1 < 32) (n : Fin a) (c : Fin b) :
    (sitofp (F := Ideal) .f32 (extui 32 (cmpi .eq (iota .tc ⟨2, ![a, b]⟩ 32 [1] hi)
        (broadcastTo ⟨2, ![a, b]⟩ (shapeCast ⟨2, ![a, 1]⟩ x hc) hb)) hw) : FVec Ideal ⟨2, ![a, b]⟩ .f32) (ix2 n c)
      = if BitVec.ofNat 32 c.val = x (ix3 (0 : Fin 1) n (0 : Fin 1)) then 1 else 0 := by
  show (FloatOps.sitofp (F := Ideal) .f32 ((IntOp.cmpi .eq (iota .tc ⟨2, ![a, b]⟩ 32 [1] hi (ix2 n c))
      (broadcastTo ⟨2, ![a, b]⟩ (shapeCast ⟨2, ![a, 1]⟩ x hc) hb (ix2 n c))).setWidth 32) : EReal) = _
  rw [Cert.Lattice.hot_eq, count_apply, spread_apply]

/-! ## The stored value -/

/-- The body's stored value is the product of the transposed one-hot matrix of the first coordinates by the values
    times the one-hot matrix of the combined coordinates, with a unit axis put in front. -/
theorem pay_eq (v0 v2 : Vec Ideal S1x64x1 .i32) (v14 : Vec Ideal S1x64x1 .f32) :
    k0_pay1 (F := Ideal) v0 v2 v14
      = shapeCast S1x127x16129
          (matmul dot_S127x64_S64x16129_S127x16129_1_0_0_1_n_n (some .fp32)
            (transpose S127x64 [1, 0]
              (sitofp (F := Ideal) .f32 (extui 32 (cmpi .eq (iota .tc S64x127 32 [1] iota_S64x127_d1_w32)
                (broadcastTo S64x127 (shapeCast S64x1 v0 shapeCasts_S1x64x1_S64x1) broadcasts_S64x1_S64x127)) natLt_1_32)
                : FVec Ideal S64x127 .f32)
              transposes_S64x127_p1_0_S127x64)
            (mulf (broadcastTo S64x16129 (shapeCast S64x1 v14 shapeCasts_S1x64x1_S64x1) broadcasts_S64x1_S64x16129)
              (sitofp (F := Ideal) .f32 (extui 32 (cmpi .eq (iota .tc S64x16129 32 [1] iota_S64x16129_d1_w32)
                (broadcastTo S64x16129 (shapeCast S64x1 v2 shapeCasts_S1x64x1_S64x1) broadcasts_S64x1_S64x16129)) natLt_1_32)
                : FVec Ideal S64x16129 .f32))
            (constant (F := Ideal) S127x16129 .f32 0x00000000#32))
          shapeCasts_S127x16129_S1x127x16129 := rfl

/-- The stored block at entry `(0, i, p)`: the sum of the values `v14 n` whose first-coordinate word `v0 n` is `i` and
    whose combined-coordinate word `v2 n` is `p`. -/
theorem pay_apply (v0 v2 : Vec Ideal S1x64x1 .i32) (v14 : Vec Ideal S1x64x1 .f32) (i : Fin 127) (p : Fin 16129) :
    k0_pay1 (F := Ideal) v0 v2 v14 (ix3 (0 : Fin 1) i p)
      = ∑ n : Fin 64, if BitVec.ofNat 32 i.val = v0 (ix3 (0 : Fin 1) n (0 : Fin 1)) ∧ BitVec.ofNat 32 p.val = v2 (ix3 (0 : Fin 1) n (0 : Fin 1))
          then v14 (ix3 (0 : Fin 1) n (0 : Fin 1)) else 0 := by
  rw [pay_eq, shapeCast_ab_1ab_apply]
  refine (Cert.Lib.PlainProduct.matmul_zero_apply ⟨rfl, rfl, rfl, rfl, rfl, rfl⟩ (some .fp32) _ _ i p).trans ?_
  rw [← Cert.Lattice.sum_hot_mul]
  refine Finset.sum_congr rfl fun n _ => ?_
  rw [transpose_ix2_apply, hot_apply, mulf_apply, spread_apply, hot_apply]

end Cert.KernelPayload

end
-- ==== Proof.KernelValue.lean ====
/-
  The kernel's result array, read off its run.
-/
import proofs.«426443_j11836929867945_3_alg».proof.Proof.Gen.KernelIdeal.Frame
import proofs.«426443_j11836929867945_3_alg».proof.Proof.KernelPayload
import proofs.«426443_j11836929867945_3_alg».proof.Proof.Lattice
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- Every window's block at grid point `t` is block `(t, 0, 0)` of its array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The flat result as a function of the two arrays the region stages: entry `(b, i, p)` is the sum of the values of
    batch `b` whose first-coordinate word is `i` and whose combined-coordinate word is `p`. -/
def flatOf (vals : S32x64x1.Idx → EReal) (words : S32x64x2.Idx → BitVec 32) : S32x127x16129.Idx → EReal := fun y =>
  ∑ n : Fin 64, if BitVec.ofNat 32 (y 1).val = words (ix3 (y 0) n (0 : Fin 2)) ∧ BitVec.ofNat 32 (y 2).val = words (ix3 (y 0) n (1 : Fin 2))
    then vals (ix3 (y 0) n (0 : Fin 1)) else 0

/-- The batch grid point `t` works on. -/
def batch (t : Fin cfg0.N) : Fin 32 := ⟨t.val, Nat.lt_of_lt_of_eq t.isLt N_0⟩

/-- Entry `(0, i, p)` of the output block at point `t` is entry `(t, i, p)` of the flat result. -/
theorem emb_out (t : Fin cfg0.N) (i : Fin 127) (p : Fin 16129) :
    (((cfg0.win 2).blk t).view.emb (ix3 (0 : Fin 1) i p) : S32x127x16129.Idx) = ix3 (batch t) i p := by
  obtain ⟨-, -, -, -, -, -, e0, e1, e2⟩ := idx_facts t
  funext a
  apply Fin.ext
  match a with
  | ⟨0, _⟩ => show win0_2.index t (0 : Fin 3) * 1 + 1 * 0 = t.val; omega
  | ⟨1, _⟩ => show win0_2.index t (1 : Fin 3) * 127 + 1 * i.val = i.val; omega
  | ⟨2, _⟩ => show win0_2.index t (2 : Fin 3) * 16129 + 1 * p.val = p.val; omega

/-- The word block at point `t` is batch `t` of the staged word array. -/
theorem words_blk (c : Dev nD) (t : Fin cfg0.N) (n : Fin 64) (k : Fin 2) :
    (iblk m c 1 t : Vec Ideal S1x64x2 .i32) (ix3 (0 : Fin 1) n k) = (V m c main_v13 : S32x64x2.Idx → BitVec 32) (ix3 (batch t) n k) := by
  obtain ⟨-, -, -, e0, e1, e2, -, -, -⟩ := idx_facts t
  unfold iblk
  rw [View.read_apply]
  show V m c main_v13 _ = V m c main_v13 _
  congr 1
  funext a
  apply Fin.ext
  match a with
  | ⟨0, _⟩ => show win0_1.index t (0 : Fin 3) * 1 + 1 * 0 = t.val; omega
  | ⟨1, _⟩ => show win0_1.index t (1 : Fin 3) * 64 + 1 * n.val = n.val; omega
  | ⟨2, _⟩ => show win0_1.index t (2 : Fin 3) * 2 + 1 * k.val = k.val; omega

/-- The value block at point `t` is batch `t` of the staged value array. -/
theorem vals_blk (c : Dev nD) (t : Fin cfg0.N) (n : Fin 64) :
    (iblk m c 0 t : Vec Ideal S1x64x1 .f32) (ix3 (0 : Fin 1) n (0 : Fin 1)) = (V m c main_v15 : S32x64x1.Idx → EReal) (ix3 (batch t) n (0 : Fin 1)) := by
  obtain ⟨e0, e1, e2, -, -, -, -, -, -⟩ := idx_facts t
  unfold iblk
  rw [View.read_apply]
  show V m c main_v15 _ = V m c main_v15 _
  congr 1
  funext a
  apply Fin.ext
  match a with
  | ⟨0, _⟩ => show win0_0.index t (0 : Fin 3) * 1 + 1 * 0 = t.val; omega
  | ⟨1, _⟩ => show win0_0.index t (1 : Fin 3) * 64 + 1 * n.val = n.val; omega
  | ⟨2, _⟩ => show win0_0.index t (2 : Fin 3) * 1 + 1 * 0 = 0; omega

/-- The body's three loads: column 0 and column 1 of the word block, and the value block. -/
theorem ld_col0 (X : Vec Ideal S1x64x2 .i32) (n : Fin 64) : View.ld X r0_0 (ix3 (0 : Fin 1) n (0 : Fin 1)) = X (ix3 (0 : Fin 1) n (0 : Fin 2)) := by
  show X _ = X _
  congr 1
  funext a
  apply Fin.ext
  match a with
  | ⟨0, _⟩ => rfl
  | ⟨1, _⟩ => show 0 + 1 * n.val = n.val; omega
  | ⟨2, _⟩ => rfl

theorem ld_col1 (X : Vec Ideal S1x64x2 .i32) (n : Fin 64) : View.ld X r0_1 (ix3 (0 : Fin 1) n (0 : Fin 1)) = X (ix3 (0 : Fin 1) n (1 : Fin 2)) := by
  show X _ = X _
  congr 1
  funext a
  apply Fin.ext
  match a with
  | ⟨0, _⟩ => rfl
  | ⟨1, _⟩ => show 0 + 1 * n.val = n.val; omega
  | ⟨2, _⟩ => rfl

theorem flushed_eq (c : Dev nD) (t : Fin cfg0.N) :
    (dats m 0 c).flushed 2 t = ((cfg0.win 2).blk t).view.read (Elt Ideal) (flatOf (V m c main_v15) (V m c main_v13)) := by
  show (cfg0.win 2).cut (grid0.coords t) ((dats m 0 c).after 2 t) = _
  rw [after0_2]
  unfold out0_2
  rw [View.canon_unit_zero hz]
  funext j
  show k0_pay1 (F := Ideal) (View.ld (iblk m c 1 t) r0_0) (View.ld (iblk m c 1 t) r0_1) (View.ld (iblk m c 0 t) r0_2) j
    = flatOf (V m c main_v15) (V m c main_v13) (((cfg0.win 2).blk t).view.emb j)
  obtain ⟨a, i, p, rfl⟩ : ∃ (a : Fin 1) (i : Fin 127) (p : Fin 16129), j = ix3 a i p := ⟨j 0, j 1, j 2, eq_ix3 j⟩
  obtain rfl : a = 0 := Subsingleton.elim _ _
  rw [Cert.KernelPayload.pay_apply]
  unfold flatOf
  refine Finset.sum_congr rfl fun n _ => ?_
  rw [emb_out t i p, ld_col0, ld_col1, View.ld_unit_zero (S := S1x64x1) hz, words_blk, words_blk, vals_blk]

/-- An index of the flat result is in point `t`'s block iff each coordinate is in the block's range on its axis. -/
theorem mem_blk (t : Fin cfg0.N) (i : S32x127x16129.Idx) :
    i ∈ ((cfg0.win 2).blk t).view.set ↔ ∀ a : Fin 3, win0_2.index t a * S1x127x16129.size a ≤ (i a).val
      ∧ (i a).val < win0_2.index t a * S1x127x16129.size a + S1x127x16129.size a := by
  show i ∈ ((View.whole main_v16).slice (win0_2.rect t)).set ↔ _
  rw [View.set_slice_whole, Rect.mem_set_unit]
  exact Iff.rfl

/-- The 32 blocks tile the flat result, so after the run it is `flatOf` of the staged arrays everywhere. -/
theorem final (c : Dev nD) : (dats m 0 c).arrAt 2 cfg0.N = flatOf (V m c main_v15) (V m c main_v13) :=
  (dats m 0 c).arrAt_eq_of_cover 2 _ (fun t _ => flushed_eq m c t) fun i => by
    have h0 : (i 0).val < 32 := (i 0).isLt
    have h1 : (i 1).val < 127 := (i 1).isLt
    have h2 : (i 2).val < 16129 := (i 2).isLt
    refine ⟨⟨(i 0).val, Nat.lt_of_lt_of_eq h0 N_0.symm⟩, flush0_2 _, ?_⟩
    rw [mem_blk]
    obtain ⟨-, -, -, -, -, -, e0', e1, e2⟩ := idx_facts ⟨(i 0).val, Nat.lt_of_lt_of_eq h0 N_0.symm⟩
    have e0 : win0_2.index ⟨(i 0).val, Nat.lt_of_lt_of_eq h0 N_0.symm⟩ (0 : Fin 3) = (i 0).val := e0'
    intro a
    match a with
    | ⟨0, _⟩ =>
      show win0_2.index _ (0 : Fin 3) * 1 ≤ (i 0).val ∧ (i 0).val < win0_2.index _ (0 : Fin 3) * 1 + 1
      rw [e0]; exact ⟨by omega, by omega⟩
    | ⟨1, _⟩ =>
      show win0_2.index _ (1 : Fin 3) * 127 ≤ (i 1).val ∧ (i 1).val < win0_2.index _ (1 : Fin 3) * 127 + 127
      rw [e1]; exact ⟨by omega, by omega⟩
    | ⟨2, _⟩ =>
      show win0_2.index _ (2 : Fin 3) * 16129 ≤ (i 2).val ∧ (i 2).val < win0_2.index _ (2 : Fin 3) * 16129 + 16129
      rw [e2]; exact ⟨by omega, by omega⟩

/-- After the region the program views the flat result as the four-axis lattice. -/
theorem tail_eq (c : Dev nD) :
    Pipeline.afterTail₀ cfgs (dats m) 0 (V0 m) [hostOps1] c main_v17
      = shapeCast S32x127x127x127 (flatOf (V m c main_v15) (V m c main_v13)) shapeCasts_S32x127x16129_S32x127x127x127 := by
  unfold Pipeline.afterTail₀
  show StableHlo.after hostOps1 _ (Proc.devRef .tc main_v17) = _
  after_results
  have e : Pipeline.withArrays (cfgs 0).spec c (V0 m c) (fun w => (dats m 0 c).arrAt w (cfgs 0).N) (Proc.devRef .tc main_v16)
      = flatOf (V m c main_v15) (V m c main_v13) :=
    (Pipeline.withArrays_arr spec0 launch0.win.arr_inj c _ _ 2).trans (final m c)
  rw [e]
  rfl

/-! ## The staged arrays as terms of the arguments -/

/-- The offsets moved by the centre. -/
abbrev shifted (a1 : IVec S32x64x3 32) : IVec S32x64x3 32 :=
  addi a1 (broadcastInDim S32x64x3 ![] bcast_S_S32x64x3 (constantI S_ 32 63#32))

/-- The staged word array: per value the first coordinate word and the combined coordinate word. -/
abbrev wordsTerm (a1 : IVec S32x64x3 32) : IVec S32x64x2 32 :=
  concatenate S32x64x2 2
    [⟨S32x64x1, broadcastInDim S32x64x1 ![0, 1] bcast_S32x64_S32x64x1_0_1
        (shapeCast S32x64 (extractStridedSlice S32x64x1 ![0, 0, 0] (shifted a1) slices_S32x64x3_S32x64x1_0_0_0) shapeCasts_S32x64x1_S32x64)⟩,
     ⟨S32x64x1, broadcastInDim S32x64x1 ![0, 1] bcast_S32x64_S32x64x1_0_1
        (addi (muli (shapeCast S32x64 (extractStridedSlice S32x64x1 ![0, 0, 1] (shifted a1) slices_S32x64x3_S32x64x1_0_0_1) shapeCasts_S32x64x1_S32x64)
                (broadcastInDim S32x64 ![] bcast_S_S32x64 (constantI S_ 32 127#32)))
              (shapeCast S32x64 (extractStridedSlice S32x64x1 ![0, 0, 2] (shifted a1) slices_S32x64x3_S32x64x1_0_0_2) shapeCasts_S32x64x1_S32x64))⟩]
    concatenates_S32x64x1_S32x64x1_S32x64x2_d2

/-- The staged value array: the masked values with a unit axis appended. -/
abbrev valsTerm (a0 : S32x64.Idx → EReal) (a2 : IVec S32x64 1) : S32x64x1.Idx → EReal :=
  shapeCast S32x64x1 (select a2 a0 (broadcastInDim S32x64 ![] bcast_S_S32x64 (constant (F := Ideal) S_ .f32 0x00000000#32)))
    shapeCasts_S32x64_S32x64x1

theorem V_words (c : Dev nD) : (V m c main_v13 : S32x64x2.Idx → BitVec 32) = wordsTerm (m ((c : Thread nD τ).loc main_arg1)) := by
  dsimp only [V, V0]
  simp only [hostOps0, hostOps0_1, hostOps0_2, List.flatten_cons, List.flatten_nil, List.append_nil, List.cons_append, List.nil_append]
  after_results
  rfl

theorem V_vals (c : Dev nD) : (V m c main_v15 : S32x64x1.Idx → EReal)
    = valsTerm (m ((c : Thread nD τ).loc main_arg0)) (m ((c : Thread nD τ).loc main_arg2)) := by
  dsimp only [V, V0]
  simp only [hostOps0, hostOps0_1, hostOps0_2, List.flatten_cons, List.flatten_nil, List.append_nil, List.cons_append, List.nil_append]
  after_results
  rfl

/-- Column `k` of a [32,64,3] word array, as a [32,64] array, at `(b, n)`. -/
theorem col_apply (s : IVec S32x64x3 32) (off : Fin 3 → Nat) (k : Fin 3) (hoff : off = ![0, 0, k.val]) (hs : S32x64x3.Slices off S32x64x1)
    (b : Fin 32) (n : Fin 64) :
    shapeCast S32x64 (extractStridedSlice S32x64x1 off s hs) shapeCasts_S32x64x1_S32x64 (ix2 b n) = s (ix3 b n k) := by
  subst hoff
  rw [shapeCast_apply _ _ (ix2 b n) (ix3 b n (0 : Fin 1)) (by
    rw [Shape.rowMajor_val_three, Shape.rowMajor_val_two]
    show (b.val * 64 + n.val) * 1 + 0 = b.val * 64 + n.val
    omega)]
  refine extractStridedSlice_apply _ _ _ _ (ix3 b n k) fun a => ?_
  match a with
  | ⟨0, _⟩ => show b.val = 0 + b.val; omega
  | ⟨1, _⟩ => show n.val = 0 + n.val; omega
  | ⟨2, _⟩ => show k.val = k.val + 0; omega

/-- A [32,64] array with a unit axis appended, at `(b, n, 0)`. -/
theorem unit_apply {α : Type} (x : S32x64.Idx → α) (b : Fin 32) (n : Fin 64) :
    broadcastInDim S32x64x1 ![0, 1] bcast_S32x64_S32x64x1_0_1 x (ix3 b n (0 : Fin 1)) = x (ix2 b n) := by
  refine broadcastInDim_apply _ _ _ _ (ix2 b n) fun a => ?_
  match a with
  | ⟨0, _⟩ => show b.val = if (32 : Nat) = 1 then 0 else b.val; rw [if_neg (by decide)]
  | ⟨1, _⟩ => show n.val = if (64 : Nat) = 1 then 0 else n.val; rw [if_neg (by decide)]

/-- The first staged word of value `(b, n)` is its first offset moved by the centre. -/
theorem words_apply0 (a1 : IVec S32x64x3 32) (b : Fin 32) (n : Fin 64) :
    wordsTerm a1 (ix3 b n (0 : Fin 2)) = a1 (ix3 b n (0 : Fin 3)) + 63#32 := by
  unfold wordsTerm
  rw [concatenate_pair_apply_left (t := S32x64x2) (s₁ := S32x64x1) (s₂ := S32x64x1) (2 : Fin 3) _ _ _ (ix3 b n (0 : Fin 2)) rfl (ix3 b n (0 : Fin 1)) (fun a => by
    match a with
    | ⟨0, _⟩ => rfl
    | ⟨1, _⟩ => rfl
    | ⟨2, _⟩ => rfl)]
  rw [unit_apply, col_apply (shifted a1) ![0, 0, 0] (0 : Fin 3) rfl slices_S32x64x3_S32x64x1_0_0_0 b n]
  rfl

/-- The second staged word is the second shifted offset times the side plus the third shifted offset. -/
theorem words_apply1 (a1 : IVec S32x64x3 32) (b : Fin 32) (n : Fin 64) :
    wordsTerm a1 (ix3 b n (1 : Fin 2)) = (a1 (ix3 b n (1 : Fin 3)) + 63#32) * 127#32 + (a1 (ix3 b n (2 : Fin 3)) + 63#32) := by
  unfold wordsTerm
  rw [concatenate_pair_apply_right (t := S32x64x2) (s₁ := S32x64x1) (s₂ := S32x64x1) (2 : Fin 3) _ _ _ (ix3 b n (1 : Fin 2)) rfl rfl (ix3 b n (0 : Fin 1)) (fun a ha => by
    match a with
    | ⟨0, _⟩ => rfl
    | ⟨1, _⟩ => rfl
    | ⟨2, _⟩ => exact absurd rfl ha) rfl]
  rw [unit_apply]
  show IntOp.addi (IntOp.muli (shapeCast S32x64 (extractStridedSlice S32x64x1 ![0, 0, 1] (shifted a1) slices_S32x64x3_S32x64x1_0_0_1) shapeCasts_S32x64x1_S32x64 (ix2 b n)) 127#32)
      (shapeCast S32x64 (extractStridedSlice S32x64x1 ![0, 0, 2] (shifted a1) slices_S32x64x3_S32x64x1_0_0_2) shapeCasts_S32x64x1_S32x64 (ix2 b n)) = _
  rw [col_apply (shifted a1) ![0, 0, 1] (1 : Fin 3) rfl slices_S32x64x3_S32x64x1_0_0_1 b n,
    col_apply (shifted a1) ![0, 0, 2] (2 : Fin 3) rfl slices_S32x64x3_S32x64x1_0_0_2 b n]
  rfl

/-- The staged value of `(b, n)` is the masked value. -/
theorem vals_apply (a0 : S32x64.Idx → EReal) (a2 : IVec S32x64 1) (b : Fin 32) (n : Fin 64) :
    valsTerm a0 a2 (ix3 b n (0 : Fin 1)) = Cert.Lattice.masked a0 a2 (ix2 b n) := by
  unfold valsTerm
  rw [shapeCast_apply _ _ (ix3 b n (0 : Fin 1)) (ix2 b n) (by
    rw [Shape.rowMajor_val_three, Shape.rowMajor_val_two]
    show b.val * 64 + n.val = (b.val * 64 + n.val) * 1 + 0
    omega)]
  show Scalar.select (a2 (ix2 b n)) (a0 (ix2 b n)) (Ideal.ofBits .f32 0x00000000#32) = _
  rw [Ideal.ofBits_zero_f32]
  rfl

/-! ## From the flat result to the lattice -/

/-- The four-axis view of a flat [32,127,16129] array: entry `(b, i, j, k)` is flat entry `(b, i, j · 127 + k)`. -/
theorem lattice_view (G : S32x127x16129.Idx → EReal) (b : Fin 32) (i j k : Fin 127) :
    shapeCast S32x127x127x127 G shapeCasts_S32x127x16129_S32x127x127x127 (ix4 b i j k)
      = G (ix3 b i (⟨j.val * 127 + k.val, by have := j.isLt; have := k.isLt; omega⟩ : Fin 16129)) := by
  refine shapeCast_apply _ _ _ _ ?_
  rw [Shape.rowMajor_val_three, Shape.rowMajor_val_four]
  show (b.val * 127 + i.val) * 16129 + (j.val * 127 + k.val) = ((b.val * 127 + i.val) * 127 + j.val) * 127 + k.val
  omega

/-- Where every coordinate is below 127, the four-axis view of the flat result of the staged arrays is the lattice of
    the masked values and the raw offsets: comparing the first coordinate with `i` and the combined coordinate with
    `j · 127 + k` selects exactly the values at `(i, j, k)`. -/
theorem flat_eq_lattice (a0 : S32x64.Idx → EReal) (a1 : IVec S32x64x3 32) (a2 : IVec S32x64 1) (h : Cert.Lattice.InRange a1) :
    shapeCast S32x127x127x127 (flatOf (valsTerm a0 a2) (wordsTerm a1)) shapeCasts_S32x127x16129_S32x127x127x127
      = Cert.Lattice.lattice (Cert.Lattice.masked a0 a2) a1 := by
  funext y
  obtain ⟨b, i, j, k, rfl⟩ : ∃ (b : Fin 32) (i j k : Fin 127), y = ix4 b i j k := ⟨y 0, y 1, y 2, y 3, eq_ix4 y⟩
  rw [lattice_view]
  unfold flatOf Cert.Lattice.lattice
  refine Finset.sum_congr rfl fun n _ => ?_
  show (if BitVec.ofNat 32 i.val = wordsTerm a1 (ix3 b n (0 : Fin 2)) ∧ BitVec.ofNat 32 (j.val * 127 + k.val) = wordsTerm a1 (ix3 b n (1 : Fin 2))
        then valsTerm a0 a2 (ix3 b n (0 : Fin 1)) else 0)
    = (if Cert.Lattice.coord (a1 (ix3 b n (0 : Fin 3))) = i.val ∧ Cert.Lattice.coord (a1 (ix3 b n (1 : Fin 3))) = j.val
          ∧ Cert.Lattice.coord (a1 (ix3 b n (2 : Fin 3))) = k.val then Cert.Lattice.masked a0 a2 (ix2 b n) else 0)
  rw [words_apply0, words_apply1, vals_apply]
  refine if_congr ?_ rfl rfl
  rw [Cert.Lattice.ofNat_eq_shift_iff _ _ (by have := i.isLt; omega),
    Cert.Lattice.ofNat_eq_combined_iff _ _ (h _) (h _) _ _ j.isLt k.isLt]

/-! ## The run, read -/

/-- Where every coordinate is below 127: every weakly fair execution of the kernel's program terminates with the result
    array at the lattice of the masked values and the raw offsets, the arguments unchanged. -/
theorem run (h : ∀ c : Dev nD, Cert.Lattice.InRange (m ((c : Thread nD τ).loc main_arg1))) :
    θ_run defs (onTc (τ := τ) (main (F := Ideal))) ⟨m, fun _ => 0, ρ⟩ fun r => ∀ c : Dev nD,
      r.2.mem ((c : Thread nD τ).loc main_v17)
        = Cert.Lattice.lattice (Cert.Lattice.masked (m ((c : Thread nD τ).loc main_arg0)) (m ((c : Thread nD τ).loc main_arg2)))
            (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c =>
    ⟨((hr c).2 main_v17 (Pipeline.mem_restRefs_of main_v17 (by decide) (by decide))).trans
        ((tail_eq m c).trans (by rw [V_vals, V_words]; exact flat_eq_lattice _ _ _ (h c))),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c)⟩)
    (run_main m ρ)

end Cert.KernelValue

end
-- ==== Proof.RefValue.lean ====
/-
  The reference's result is the lattice.

  The reference builds, for every value `(b, n)`, a start index of four words — the batch number and the three shifted
  offsets, each passed through "a negative index counts from the end" — and adds the value at that position of a
  zero array when the position is inside it. Where every coordinate is below 127 no word is negative and every position
  is inside, so entry `(b, i, j, k)` collects exactly the values of batch `b` whose coordinates are `(i, j, k)`.
-/
import proofs.«426443_j11836929867945_3_alg».proof.Proof.Gen.ReferenceIdeal.Read
import proofs.«426443_j11836929867945_3_alg».proof.Proof.Lattice
import Idealize.ShloMosaic.Lib.Pipeline.Value

noncomputable section

open scoped BigOperators

namespace Cert.RefValue

open Idealize.ShloMosaic Idealize.ShloMosaic.ValueIdx Cert.ReferenceIdeal Cert.ReferenceIdeal.Gen Cert.ReferenceIdeal.Read

/-! ## The scatter's dimension numbers: every operand axis is a scatter axis -/

/-- The dimension numbers of the scatter. -/
abbrev dims : ScatterDims S32x127x127x127 S32x64x4 S32x64 := scatter_S32x127x127x127_S32x64x4_S32x64_n_0123_0123_2

/-- Every operand axis is named by the map from index components to operand axes. -/
theorem mem_all (a : Fin 4) : a ∈ ([0, 1, 2, 3] : List (Fin 4)) := by
  revert a; decide

/-- No axis carries a window: every window coordinate is 0. -/
theorem window_zero (j : S32x64.Idx) (a : Fin S32x127x127x127.rank) : dims.window j a = 0 := by
  unfold ScatterDims.window
  rw [dif_neg]
  intro h
  have := (List.mem_filter.1 h).2
  simp only [decide_eq_true_eq] at this
  exact this (mem_all a)

/-- Axis `a` is named by component `a` of the index vector. -/
theorem idxOf_all (a : Fin 4) : ([0, 1, 2, 3] : List (Fin 4)).idxOf a = a.val := by
  revert a; decide

/-- Component `a` of the start index of update `j` is read at `(j 0, j 1, a)`. -/
theorem siIdx_eq (j : S32x64.Idx) (a : Fin 4) (h : dims.scatterDimsToOperandDims.idxOf a < dims.scatterDimsToOperandDims.length) :
    dims.siIdx j ⟨dims.scatterDimsToOperandDims.idxOf a, h⟩ = ix3 (j 0) (j 1) a := by
  funext b
  refine Fin.ext ?_
  match b with
  | ⟨0, _⟩ => rfl
  | ⟨1, _⟩ => rfl
  | ⟨2, _⟩ => exact idxOf_all a

/-- The window start on axis `a` is that word, read signed. -/
theorem start_eq (j : S32x64.Idx) (idx : IVec S32x64x4 32) (a : Fin 4) :
    dims.start j idx a = (idx (ix3 (j 0) (j 1) a)).toInt := by
  have hm : a ∈ dims.scatterDimsToOperandDims := mem_all a
  unfold ScatterDims.start
  rw [dif_pos hm, siIdx_eq]
  rfl

/-- Update `j` lands at `y` iff on every axis its start word, read signed, is `y`'s coordinate. -/
theorem resultIdx_iff (j : S32x64.Idx) (idx : IVec S32x64x4 32) (y : S32x127x127x127.Idx) :
    dims.resultIdx? j idx = some y ↔ ∀ a : Fin 4, (idx (ix3 (j 0) (j 1) a)).toInt = ((y a).val : ℤ) := by
  unfold ScatterDims.resultIdx?
  simp only [window_zero, start_eq]
  constructor
  · intro h a
    split at h
    · next hb =>
      have e := congrFun (Option.some.inj h) a
      have e' := congrArg Fin.val e
      simp only at e'
      have := (hb a).1
      omega
    · exact absurd h (by simp)
  · intro h
    have hb : ∀ a : Fin 4, 0 ≤ (idx (ix3 (j 0) (j 1) a)).toInt + ((0 : ℕ) : ℤ) ∧
        (idx (ix3 (j 0) (j 1) a)).toInt + ((0 : ℕ) : ℤ) < (S32x127x127x127.size a : ℤ) := by
      intro a
      rw [h a]
      have := (y a).isLt
      omega
    rw [dif_pos hb]
    congr 1
    funext a
    refine Fin.ext ?_
    simp only
    rw [h a]
    omega

/-! ## The words of the start index -/

/-- The batch word at `(b, n)` is the batch number. -/
theorem v5_at (b : Fin 32) (n : Fin 64) : val_main_v5 (F := Ideal) (ix2 b n) = BitVec.ofNat 32 b.val := by
  rw [val_main_v5_apply, val_main_v4_apply, val_main_v3_apply]

/-- Passed through "a negative index counts from the end", it is still the batch number. -/
theorem v17_at (b : Fin 32) (n : Fin 64) : val_main_v17 (F := Ideal) (ix2 b n) = BitVec.ofNat 32 b.val := by
  rw [val_main_v17_apply, val_main_v14_apply, val_main_v16_apply, val_main_v13_apply, val_main_v15_apply,
    val_main_c_1_apply, val_main_c_2_apply, v5_at]
  exact Cert.Lattice.wrap_batch b.val b.isLt

/-- The shifted offsets are the raw offsets plus 63. -/
theorem v1_at (x1 : IVec S32x64x3 32) (i : S32x64x3.Idx) : val_main_v1 (F := Ideal) x1 i = x1 i + 63#32 := by
  rw [val_main_v1_apply, val_main_v0_apply, val_main_c_apply]
  rfl

theorem v8_at (x1 : IVec S32x64x3 32) (b : Fin 32) (n : Fin 64) :
    val_main_v8 (F := Ideal) x1 (ix2 b n) = x1 (ix3 b n (0 : Fin 3)) + 63#32 := by
  rw [val_main_v8_apply, val_main_v7_apply, v1_at]
  have e : idx_main_v7 (idx_main_v8 (ix2 b n)) = ix3 b n (0 : Fin 3) := by
    funext a
    refine Fin.ext ?_
    have hb := b.isLt
    have hn := n.isLt
    match a with
    | ⟨0, _⟩ => show (b.val * 64 + n.val) / 64 = b.val; omega
    | ⟨1, _⟩ => show (b.val * 64 + n.val) / 1 % 64 = n.val; omega
    | ⟨2, _⟩ => rfl
  rw [e]

theorem v10_at (x1 : IVec S32x64x3 32) (b : Fin 32) (n : Fin 64) :
    val_main_v10 (F := Ideal) x1 (ix2 b n) = x1 (ix3 b n (1 : Fin 3)) + 63#32 := by
  rw [val_main_v10_apply, val_main_v9_apply, v1_at]
  have e : idx_main_v9 (idx_main_v10 (ix2 b n)) = ix3 b n (1 : Fin 3) := by
    funext a
    refine Fin.ext ?_
    have hb := b.isLt
    have hn := n.isLt
    match a with
    | ⟨0, _⟩ => show (b.val * 64 + n.val) / 64 = b.val; omega
    | ⟨1, _⟩ => show (b.val * 64 + n.val) / 1 % 64 = n.val; omega
    | ⟨2, _⟩ => rfl
  rw [e]

theorem v12_at (x1 : IVec S32x64x3 32) (b : Fin 32) (n : Fin 64) :
    val_main_v12 (F := Ideal) x1 (ix2 b n) = x1 (ix3 b n (2 : Fin 3)) + 63#32 := by
  rw [val_main_v12_apply, val_main_v11_apply, v1_at]
  have e : idx_main_v11 (idx_main_v12 (ix2 b n)) = ix3 b n (2 : Fin 3) := by
    funext a
    refine Fin.ext ?_
    have hb := b.isLt
    have hn := n.isLt
    match a with
    | ⟨0, _⟩ => show (b.val * 64 + n.val) / 64 = b.val; omega
    | ⟨1, _⟩ => show (b.val * 64 + n.val) / 1 % 64 = n.val; omega
    | ⟨2, _⟩ => rfl
  rw [e]

/-- Where the coordinate is below 127 the wrapped word is the shifted offset. -/
theorem v22_at (x1 : IVec S32x64x3 32) (b : Fin 32) (n : Fin 64) (h : Cert.Lattice.coord (x1 (ix3 b n (0 : Fin 3))) < 127) :
    val_main_v22 (F := Ideal) x1 (ix2 b n) = x1 (ix3 b n (0 : Fin 3)) + 63#32 := by
  rw [val_main_v22_apply, val_main_v19_apply, val_main_v21_apply, val_main_v18_apply, val_main_v20_apply,
    val_main_c_3_apply, val_main_c_4_apply, v8_at]
  exact Cert.Lattice.wrap_shift _ h

theorem v27_at (x1 : IVec S32x64x3 32) (b : Fin 32) (n : Fin 64) (h : Cert.Lattice.coord (x1 (ix3 b n (1 : Fin 3))) < 127) :
    val_main_v27 (F := Ideal) x1 (ix2 b n) = x1 (ix3 b n (1 : Fin 3)) + 63#32 := by
  rw [val_main_v27_apply, val_main_v24_apply, val_main_v26_apply, val_main_v23_apply, val_main_v25_apply,
    val_main_c_5_apply, val_main_c_6_apply, v10_at]
  exact Cert.Lattice.wrap_shift _ h

theorem v32_at (x1 : IVec S32x64x3 32) (b : Fin 32) (n : Fin 64) (h : Cert.Lattice.coord (x1 (ix3 b n (2 : Fin 3))) < 127) :
    val_main_v32 (F := Ideal) x1 (ix2 b n) = x1 (ix3 b n (2 : Fin 3)) + 63#32 := by
  rw [val_main_v32_apply, val_main_v29_apply, val_main_v31_apply, val_main_v28_apply, val_main_v30_apply,
    val_main_c_7_apply, val_main_c_8_apply, v12_at]
  exact Cert.Lattice.wrap_shift _ h

/-! ## The start index array, word by word -/

/-- Component `k` of the start index of `(b, n)` is the `k`-th piece at `(b, n, 0)`. -/
theorem v37_at0 (x1 : IVec S32x64x3 32) (b : Fin 32) (n : Fin 64) :
    val_main_v37 (F := Ideal) x1 (ix3 b n (0 : Fin 4)) = val_main_v33 (F := Ideal) (ix3 b n (0 : Fin 1)) := by
  unfold val_main_v37
  refine concatenate_apply_piece (2 : Fin 3) _ _ (ix3 b n (0 : Fin 4)) 0 ?_ S32x64x1 _ ?_ ?_ 0 ?_
    (ix3 b n (0 : Fin 1)) ?_ ?_
  · show (0 : ℕ) < 4
    omega
  · rfl
  · rfl
  · rfl
  · intro c hc
    match c with
    | ⟨0, _⟩ => rfl
    | ⟨1, _⟩ => rfl
    | ⟨2, _⟩ => exact absurd rfl hc
  · rfl

theorem v37_at1 (x1 : IVec S32x64x3 32) (b : Fin 32) (n : Fin 64) :
    val_main_v37 (F := Ideal) x1 (ix3 b n (1 : Fin 4)) = val_main_v34 (F := Ideal) x1 (ix3 b n (0 : Fin 1)) := by
  unfold val_main_v37
  refine concatenate_apply_piece (2 : Fin 3) _ _ (ix3 b n (1 : Fin 4)) 1 ?_ S32x64x1 _ ?_ ?_ 1 ?_
    (ix3 b n (0 : Fin 1)) ?_ ?_
  · show (1 : ℕ) < 4
    omega
  · rfl
  · rfl
  · rfl
  · intro c hc
    match c with
    | ⟨0, _⟩ => rfl
    | ⟨1, _⟩ => rfl
    | ⟨2, _⟩ => exact absurd rfl hc
  · rfl

theorem v37_at2 (x1 : IVec S32x64x3 32) (b : Fin 32) (n : Fin 64) :
    val_main_v37 (F := Ideal) x1 (ix3 b n (2 : Fin 4)) = val_main_v35 (F := Ideal) x1 (ix3 b n (0 : Fin 1)) := by
  unfold val_main_v37
  refine concatenate_apply_piece (2 : Fin 3) _ _ (ix3 b n (2 : Fin 4)) 2 ?_ S32x64x1 _ ?_ ?_ 2 ?_
    (ix3 b n (0 : Fin 1)) ?_ ?_
  · show (2 : ℕ) < 4
    omega
  · rfl
  · rfl
  · rfl
  · intro c hc
    match c with
    | ⟨0, _⟩ => rfl
    | ⟨1, _⟩ => rfl
    | ⟨2, _⟩ => exact absurd rfl hc
  · rfl

theorem v37_at3 (x1 : IVec S32x64x3 32) (b : Fin 32) (n : Fin 64) :
    val_main_v37 (F := Ideal) x1 (ix3 b n (3 : Fin 4)) = val_main_v36 (F := Ideal) x1 (ix3 b n (0 : Fin 1)) := by
  unfold val_main_v37
  refine concatenate_apply_piece (2 : Fin 3) _ _ (ix3 b n (3 : Fin 4)) 3 ?_ S32x64x1 _ ?_ ?_ 3 ?_
    (ix3 b n (0 : Fin 1)) ?_ ?_
  · show (3 : ℕ) < 4
    omega
  · rfl
  · rfl
  · rfl
  · intro c hc
    match c with
    | ⟨0, _⟩ => rfl
    | ⟨1, _⟩ => rfl
    | ⟨2, _⟩ => exact absurd rfl hc
  · rfl

/-- The index a widened `[32, 64, 1]` array reads its `[32, 64]` operand at. -/
theorem widen_idx (b : Fin 32) (n : Fin 64) : idx_main_v33 (ix3 b n (0 : Fin 1)) = ix2 b n := by
  funext a
  match a with
  | ⟨0, _⟩ => rfl
  | ⟨1, _⟩ => rfl

/-- Word 0 of the start index is the batch number; words 1 to 3 are the shifted offsets. -/
theorem word0 (x1 : IVec S32x64x3 32) (b : Fin 32) (n : Fin 64) :
    val_main_v37 (F := Ideal) x1 (ix3 b n (0 : Fin 4)) = BitVec.ofNat 32 b.val := by
  rw [v37_at0, val_main_v33_apply, widen_idx, v17_at]

theorem word1 (x1 : IVec S32x64x3 32) (b : Fin 32) (n : Fin 64) (h : Cert.Lattice.coord (x1 (ix3 b n (0 : Fin 3))) < 127) :
    val_main_v37 (F := Ideal) x1 (ix3 b n (1 : Fin 4)) = x1 (ix3 b n (0 : Fin 3)) + 63#32 := by
  rw [v37_at1, val_main_v34_apply]
  exact v22_at x1 b n h

theorem word2 (x1 : IVec S32x64x3 32) (b : Fin 32) (n : Fin 64) (h : Cert.Lattice.coord (x1 (ix3 b n (1 : Fin 3))) < 127) :
    val_main_v37 (F := Ideal) x1 (ix3 b n (2 : Fin 4)) = x1 (ix3 b n (1 : Fin 3)) + 63#32 := by
  rw [v37_at2, val_main_v35_apply]
  exact v27_at x1 b n h

theorem word3 (x1 : IVec S32x64x3 32) (b : Fin 32) (n : Fin 64) (h : Cert.Lattice.coord (x1 (ix3 b n (2 : Fin 3))) < 127) :
    val_main_v37 (F := Ideal) x1 (ix3 b n (3 : Fin 4)) = x1 (ix3 b n (2 : Fin 3)) + 63#32 := by
  rw [v37_at3, val_main_v36_apply]
  exact v32_at x1 b n h

/-! ## Where a value lands, and the sum -/

/-- With every coordinate below 127, the value `(b, n)` lands at `y` iff `b` is `y`'s batch and the three
    coordinates of `(b, n)` are `y`'s. -/
theorem lands_iff (x1 : IVec S32x64x3 32) (h : Cert.Lattice.InRange x1) (b : Fin 32) (n : Fin 64)
    (y : S32x127x127x127.Idx) :
    dims.resultIdx? (ix2 b n) (val_main_v37 (F := Ideal) x1) = some y ↔
      b.val = (y 0).val ∧ (Cert.Lattice.coord (x1 (ix3 b n (0 : Fin 3))) = (y 1).val
        ∧ Cert.Lattice.coord (x1 (ix3 b n (1 : Fin 3))) = (y 2).val
        ∧ Cert.Lattice.coord (x1 (ix3 b n (2 : Fin 3))) = (y 3).val) := by
  have h0 := h (ix3 b n (0 : Fin 3))
  have h1 := h (ix3 b n (1 : Fin 3))
  have h2 := h (ix3 b n (2 : Fin 3))
  have w0 : (val_main_v37 (F := Ideal) x1 (ix3 b n (0 : Fin 4))).toInt = (b.val : ℤ) := by
    rw [word0, Cert.Lattice.toInt_batch _ b.isLt]
  have w1 : (val_main_v37 (F := Ideal) x1 (ix3 b n (1 : Fin 4))).toInt = (Cert.Lattice.coord (x1 (ix3 b n (0 : Fin 3))) : ℤ) := by
    rw [word1 x1 b n h0, Cert.Lattice.toInt_shift _ h0]
  have w2 : (val_main_v37 (F := Ideal) x1 (ix3 b n (2 : Fin 4))).toInt = (Cert.Lattice.coord (x1 (ix3 b n (1 : Fin 3))) : ℤ) := by
    rw [word2 x1 b n h1, Cert.Lattice.toInt_shift _ h1]
  have w3 : (val_main_v37 (F := Ideal) x1 (ix3 b n (3 : Fin 4))).toInt = (Cert.Lattice.coord (x1 (ix3 b n (2 : Fin 3))) : ℤ) := by
    rw [word3 x1 b n h2, Cert.Lattice.toInt_shift _ h2]
  rw [resultIdx_iff]
  constructor
  · intro H
    have H0 := H 0
    have H1 := H 1
    have H2 := H 2
    have H3 := H 3
    change (val_main_v37 (F := Ideal) x1 (ix3 b n (0 : Fin 4))).toInt = _ at H0
    change (val_main_v37 (F := Ideal) x1 (ix3 b n (1 : Fin 4))).toInt = _ at H1
    change (val_main_v37 (F := Ideal) x1 (ix3 b n (2 : Fin 4))).toInt = _ at H2
    change (val_main_v37 (F := Ideal) x1 (ix3 b n (3 : Fin 4))).toInt = _ at H3
    rw [w0] at H0
    rw [w1] at H1
    rw [w2] at H2
    rw [w3] at H3
    exact ⟨by exact_mod_cast H0, by exact_mod_cast H1, by exact_mod_cast H2, by exact_mod_cast H3⟩
  · rintro ⟨e0, e1, e2, e3⟩ a
    match a with
    | ⟨0, _⟩ =>
      change (val_main_v37 (F := Ideal) x1 (ix3 b n (0 : Fin 4))).toInt = (((y 0).val : ℕ) : ℤ)
      rw [w0, e0]
    | ⟨1, _⟩ =>
      change (val_main_v37 (F := Ideal) x1 (ix3 b n (1 : Fin 4))).toInt = (((y 1).val : ℕ) : ℤ)
      rw [w1, e1]
    | ⟨2, _⟩ =>
      change (val_main_v37 (F := Ideal) x1 (ix3 b n (2 : Fin 4))).toInt = (((y 2).val : ℕ) : ℤ)
      rw [w2, e2]
    | ⟨3, _⟩ =>
      change (val_main_v37 (F := Ideal) x1 (ix3 b n (3 : Fin 4))).toInt = (((y 3).val : ℕ) : ℤ)
      rw [w3, e3]

/-- A double sum whose terms vanish off one batch is the inner sum at that batch. -/
theorem sum_one_batch (c : Fin 32) (f : Fin 32 → Fin 64 → EReal) (P : Fin 32 → Fin 64 → Prop)
    [∀ a n, Decidable (P a n)] :
    ∑ a : Fin 32, ∑ n : Fin 64, (if a.val = c.val ∧ P a n then f a n else 0) = ∑ n : Fin 64, if P c n then f c n else 0 := by
  rw [Finset.sum_eq_single c]
  · refine Finset.sum_congr rfl fun n _ => ?_
    by_cases hp : P c n
    · rw [if_pos ⟨rfl, hp⟩, if_pos hp]
    · rw [if_neg (fun hh => hp hh.2), if_neg hp]
  · intro a _ hne
    refine Finset.sum_eq_zero fun n _ => ?_
    rw [if_neg]
    intro hh
    exact hne (Fin.ext hh.1)
  · intro hh
    exact absurd (Finset.mem_univ c) hh

/-- The array scattered into is all zero. -/
theorem v6_at (y : S32x127x127x127.Idx) : val_main_v6 (F := Ideal) y = 0 := by
  rw [val_main_v6_apply, val_main_cst_0_apply]
  show Ideal.ofBits .f32 0x00000000#32 = 0
  simp [Ideal.ofBits, Ideal.ieee]

/-- The values scattered are the masked inputs. -/
theorem v2_eq (x0 : S32x64.Idx → EReal) (x2 : IVec S32x64 1) :
    val_main_v2 (F := Ideal) x0 x2 = Cert.Lattice.masked x0 x2 := by
  funext i
  rw [val_main_v2_apply, val_main_call0_v0_apply, val_main_cst_apply]
  unfold Cert.Lattice.masked
  congr 1
  show Ideal.ofBits .f32 0x00000000#32 = 0
  simp [Ideal.ofBits, Ideal.ieee]

/-- The reference run's term for the result, at the extended reals, is the lattice of the masked values and the raw
    offsets, when every coordinate is below 127. -/
theorem ref_eq (x0 : (⟨S32x64, .f32⟩ : BufTy).Contents (Elt Ideal)) (x1 : (⟨S32x64x3, .i32⟩ : BufTy).Contents (Elt Ideal))
    (x2 : (⟨S32x64, .i1⟩ : BufTy).Contents (Elt Ideal)) (h : Cert.Lattice.InRange x1) :
    Cert.ReferenceIdeal.Read.val_main_v38 (F := Ideal) x0 x1 x2 = Cert.Lattice.lattice (Cert.Lattice.masked x0 x2) x1 := by
  funext y
  change val_main_v6 (F := Ideal) y + Finset.sum _ _ = _
  rw [v6_at, zero_add, Finset.sum_filter, sum_idx2, v2_eq]
  simp only [lands_iff x1 h]
  rw [sum_one_batch (y 0) (fun a n => Cert.Lattice.masked x0 x2 (ix2 a n))
    (fun a n => Cert.Lattice.coord (x1 (ix3 a n (0 : Fin 3))) = (y 1).val
        ∧ Cert.Lattice.coord (x1 (ix3 a n (1 : Fin 3))) = (y 2).val
        ∧ Cert.Lattice.coord (x1 (ix3 a n (2 : Fin 3))) = (y 3).val)]
  rfl

end Cert.RefValue

end
-- ==== Proof.lean ====
/- The proof of `Cert.Claim`: a batched scatter-add onto a 127³ lattice, computed by the kernel as one matrix product
   of one-hot factors per batch and by the reference as an accumulating scatter.

   Per batch `b` there are 64 values and 64 raw offset triples; the lattice coordinate of an offset word `w` is `w + 63`.
   The kernel compares the first coordinate with the row number and the combined coordinate `c₁ · 127 + c₂` with the
   column number of a [127, 16129] matrix, multiplies the two one-hot matrices with the values in between, and views the
   product as [127, 127, 127]. The reference adds every value at the position its three coordinates name, after letting
   a negative index count from the end, and drops a position outside the lattice. Under the precondition that every raw
   offset lies in [-63, 63] every coordinate is below 127: no index is negative, no position is outside, and the
   combined coordinate determines its two parts. Both results are then the same function of the arguments
   (Proof/Lattice.lean `lattice`): entry `(b, i, j, k)` is the sum of the masked values of batch `b` whose coordinates are
   `(i, j, k)`. Proof/Domain.lean reads the precondition; Proof/KernelPayload.lean and Proof/KernelValue.lean read the
   kernel's run; Proof/RefValue.lean reads the reference's. Outside that range the two programs differ (a coordinate of
   127 carries into the next row of the combined index; a negative one is read from the far end by the reference only). -/
import proofs.«426443_j11836929867945_3_alg».proof.Defs
import proofs.«426443_j11836929867945_3_alg».proof.Proof.Gen.Kernel
import proofs.«426443_j11836929867945_3_alg».proof.Proof.Gen.Kernel.Frame
import proofs.«426443_j11836929867945_3_alg».proof.Proof.Gen.KernelIdeal
import proofs.«426443_j11836929867945_3_alg».proof.Proof.Gen.KernelIdeal.Frame
import proofs.«426443_j11836929867945_3_alg».proof.Proof.Gen.ReferenceIdeal
import proofs.«426443_j11836929867945_3_alg».proof.Proof.Gen.ReferenceIdeal.Run
import proofs.«426443_j11836929867945_3_alg».proof.Proof.Gen.ReferenceIdeal.Read
import proofs.«426443_j11836929867945_3_alg».proof.Proof.Gen.Pre_finite_inputs
import proofs.«426443_j11836929867945_3_alg».proof.Proof.Domain
import proofs.«426443_j11836929867945_3_alg».proof.Proof.KernelValue
import proofs.«426443_j11836929867945_3_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and satisfy the precondition, both programs end with the lattice of the masked values and
    the raw offsets. -/
theorem algebraic : Cert.algebraic_KernelIdeal_ReferenceIdeal := by
  intro m ρ m' ρ' hpre hagree
  have hr : ∀ c : Dev Cert.KernelIdeal.nD, Cert.Lattice.InRange
      (m ((c.tc : Thread Cert.KernelIdeal.nD Cert.KernelIdeal.τ).loc Cert.KernelIdeal.main_arg1)) :=
    fun c => Cert.Domain.inRange_of_pre _ _ _ (hpre c)
  refine ⟨_, Cert.KernelValue.run m ρ hr, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v38_eq (F := Ideal) _ _ _).trans ?_
  rw [(hagree c).1, (hagree c).2.1, (hagree c).2.2]
  exact Cert.RefValue.ref_eq _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
